-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x256 : Shape := ⟨2, ![400000, 256]⟩
abbrev S400000 : Shape := ⟨1, ![400000]⟩
abbrev S2x118x256 : Shape := ⟨3, ![2, 118, 256]⟩
abbrev S256x128 : Shape := ⟨2, ![256, 128]⟩
abbrev S128 : Shape := ⟨1, ![128]⟩
abbrev S_ : Shape := ⟨0, ![]⟩

class Facts : Prop where
  bcast_S_S400000x256 : S_.BroadcastsInDim S400000x256 (![] : Fin 0 → Fin S400000x256.rank)
  reducesTo_S400000x256_S_d0_1 : S400000x256.ReducesTo [0, 1] S_
  h_S_ : 0 < S_.numel
  bcast_S_S2x118x256 : S_.BroadcastsInDim S2x118x256 (![] : Fin 0 → Fin S2x118x256.rank)
  reducesTo_S2x118x256_S_d0_1_2 : S2x118x256.ReducesTo [0, 1, 2] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S400000 : S_.BroadcastsInDim S400000 (![] : Fin 0 → Fin S400000.rank)
  reducesTo_S400000_S_d0 : S400000.ReducesTo [0] S_

variable [Facts]

def fn_part1 {F : FTy → Type} [FloatOps F] (main_arg1 : IVec S400000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S400000 32 := broadcastInDim S400000 ![] bcast_S_S400000 main_c_6
  let main_v20 : IVec S400000 1 := cmpi .sge main_arg1 main_v19
  let main_c_7 : IVec S_ 1 := constantI S_ 1 1#1
  let main_v21 : IVec S_ 1 := (fun x v => Host.reduce IntOp.andi x v reducesTo_S400000_S_d0 h_S_) main_v20 main_c_7
  let main_v22 : IVec S_ 1 := andi main_v18 main_v21
  let main_c_8 : IVec S_ 32 := constantI S_ 32 118#32
  let main_v23 : IVec S400000 32 := broadcastInDim S400000 ![] bcast_S_S400000 main_c_8
  let main_v24 : IVec S400000 1 := cmpi .slt main_arg1 main_v23
  let main_c_9 : IVec S_ 1 := constantI S_ 1 1#1
  let main_v25 : IVec S_ 1 := (fun x v => Host.reduce IntOp.andi x v reducesTo_S400000_S_d0 h_S_) main_v24 main_c_9
  let main_v26 : IVec S_ 1 := andi main_v22 main_v25
  main_v26

def fn {F : FTy → Type} [FloatOps F] (main_arg0 : FVec F S400000x256 .f32) (main_arg1 : IVec S400000 32) (main_arg2 : FVec F S2x118x256 .f32) (main_arg3 : FVec F S256x128 .f32) (main_arg4 : FVec F S128 .f32) : IVec S_ 1 :=
  let main_v0 : FVec F S400000x256 .f32 := Host.absf main_arg0
  let main_cst : FVec F S_ .f32 := constant S_ .f32 0x7F800000#32
  let main_v1 : FVec F S400000x256 .f32 := broadcastInDim S400000x256 ![] bcast_S_S400000x256 main_cst
  let main_v2 : IVec S400000x256 1 := cmpf .olt main_v0 main_v1
  let main_c : IVec S_ 1 := constantI S_ 1 1#1
  let main_v3 : IVec S_ 1 := (fun x v => Host.reduce IntOp.andi x v reducesTo_S400000x256_S_d0_1 h_S_) main_v2 main_c
  let main_v4 : FVec F S2x118x256 .f32 := Host.absf main_arg2
  let main_cst_0 : FVec F S_ .f32 := constant S_ .f32 0x7F800000#32
  let main_v5 : FVec F S2x118x256 .f32 := broadcastInDim S2x118x256 ![] bcast_S_S2x118x256 main_cst_0
  let main_v6 : IVec S2x118x256 1 := cmpf .olt main_v4 main_v5
  let main_c_1 : IVec S_ 1 := constantI S_ 1 1#1
  let main_v7 : IVec S_ 1 := (fun x v => Host.reduce IntOp.andi x v reducesTo_S2x118x256_S_d0_1_2 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S400000x256 : Shape := ⟨2, ![400000, 256]⟩
abbrev S400000 : Shape := ⟨1, ![400000]⟩
abbrev S2x118x256 : Shape := ⟨3, ![2, 118, 256]⟩
abbrev S256x128 : Shape := ⟨2, ![256, 128]⟩
abbrev S128 : Shape := ⟨1, ![128]⟩
abbrev S1x118x256 : Shape := ⟨3, ![1, 118, 256]⟩
abbrev S118x256 : Shape := ⟨2, ![118, 256]⟩
abbrev S_ : Shape := ⟨0, ![]⟩
abbrev S128x256 : Shape := ⟨2, ![128, 256]⟩
abbrev S128x512 : Shape := ⟨2, ![128, 512]⟩
abbrev S256x512 : Shape := ⟨2, ![256, 512]⟩
abbrev S400000x1 : Shape := ⟨2, ![400000, 1]⟩
abbrev S1x128 : Shape := ⟨2, ![1, 128]⟩
abbrev S400000x128 : Shape := ⟨2, ![400000, 128]⟩
abbrev S3200x256 : Shape := ⟨2, ![3200, 256]⟩
abbrev S3200x1 : Shape := ⟨2, ![3200, 1]⟩
abbrev S3200x128 : Shape := ⟨2, ![3200, 128]⟩
abbrev S3200x512 : Shape := ⟨2, ![3200, 512]⟩

abbrev nBuf : Space → Nat
  | .hbm => 25
  | .vmem => 9
  | .smem => 0
  | _ => 0

abbrev bufTy : (tb : Table) → Fin (tcTables nBuf tb) → BufTy
  | .hbm, ⟨0, _⟩ => ⟨S400000x256, .f32⟩
  | .hbm, ⟨1, _⟩ => ⟨S400000, .i32⟩
  | .hbm, ⟨2, _⟩ => ⟨S2x118x256, .f32⟩
  | .hbm, ⟨3, _⟩ => ⟨S256x128, .f32⟩
  | .hbm, ⟨4, _⟩ => ⟨S128, .f32⟩
  | .hbm, ⟨5, _⟩ => ⟨S1x118x256, .f32⟩
  | .hbm, ⟨6, _⟩ => ⟨S118x256, .f32⟩
  | .hbm, ⟨7, _⟩ => ⟨S_, .i32⟩
  | .hbm, ⟨8, _⟩ => ⟨S_, .f32⟩
  | .hbm, ⟨9, _⟩ => ⟨S128x256, .f32⟩
  | .hbm, ⟨10, _⟩ => ⟨S1x118x256, .f32⟩
  | .hbm, ⟨11, _⟩ => ⟨S118x256, .f32⟩
  | .hbm, ⟨12, _⟩ => ⟨S_, .i32⟩
  | .hbm, ⟨13, _⟩ => ⟨S_, .f32⟩
  | .hbm, ⟨14, _⟩ => ⟨S128x256, .f32⟩
  | .hbm, ⟨15, _⟩ => ⟨S128x512, .f32⟩
  | .hbm, ⟨16, _⟩ => ⟨S128x512, .bf16⟩
  | .hbm, ⟨17, _⟩ => ⟨S128x512, .f32⟩
  | .hbm, ⟨18, _⟩ => ⟨S128x512, .f32⟩
  | .hbm, ⟨19, _⟩ => ⟨S128x512, .bf16⟩
  | .hbm, ⟨20, _⟩ => ⟨S256x512, .bf16⟩
  | .hbm, ⟨21, _⟩ => ⟨S400000x1, .i32⟩
  | .hbm, ⟨22, _⟩ => ⟨S256x128, .bf16⟩
  | .hbm, ⟨23, _⟩ => ⟨S1x128, .f32⟩
  | .hbm, ⟨24, _⟩ => ⟨S400000x128, .f32⟩
  | .local _ .vmem, ⟨0, _⟩ => ⟨S3200x256, .f32⟩
  | .local _ .vmem, ⟨1, _⟩ => ⟨S3200x256, .f32⟩
  | .local _ .vmem, ⟨2, _⟩ => ⟨S3200x1, .i32⟩
  | .local _ .vmem, ⟨3, _⟩ => ⟨S3200x1, .i32⟩
  | .local _ .vmem, ⟨4, _⟩ => ⟨S256x512, .bf16⟩
  | .local _ .vmem, ⟨5, _⟩ => ⟨S256x128, .bf16⟩
  | .local _ .vmem, ⟨6, _⟩ => ⟨S1x128, .f32⟩
  | .local _ .vmem, ⟨7, _⟩ => ⟨S3200x128, .f32⟩
  | .local _ .vmem, ⟨8, _⟩ => ⟨S3200x128, .f32⟩
  | _, _ => ⟨S400000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x118x256_S1x118x256_0_0_0 : S2x118x256.Slices ![0, 0, 0] S1x118x256
  shapeCasts_S1x118x256_S118x256 : S1x118x256.ShapeCasts S118x256
  pads_S118x256_S128x256_0100_000 : S118x256.Pads (![0, 0] : Fin 2 → Nat) ![10, 0] ![0, 0] S128x256
  h_S_ : 0 < S_.numel
  slices_S2x118x256_S1x118x256_1_0_0 : S2x118x256.Slices ![1, 0, 0] S1x118x256
  concatenates_S128x256_S128x256_S128x512_d1 : Shape.Concatenates [S128x256, S128x256] S128x512 1
  bitsLt_bf16_f32 : FTy.bits .bf16 < FTy.bits .f32
  concatenates_S128x512_S128x512_S256x512_d0 : Shape.Concatenates [S128x512, S128x512] S256x512 0
  shapeCasts_S400000_S400000x1 : S400000.ShapeCasts S400000x1
  shapeCasts_S128_S1x128 : S128.ShapeCasts S1x128
  inb_S3200x256_S3200x256_0_0 : ∀ a, (![0, 0] : Fin 2 → Nat) a + S3200x256.size a ≤ S3200x256.size a
  h_S3200x256 : 0 < S3200x256.numel
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  iota_S3200x256_d1_w32 : S3200x256.Iotas .tc 32 [1]
  broadcasts_S3200x1_S3200x256 : S3200x1.Broadcasts S3200x256
  natLt_1_32 : 1 < 32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  slices_S3200x512_o0_0_S3200x256 : S3200x512.Slices ![0, 0] S3200x256
  slices_S3200x512_o0_256_S3200x256 : S3200x512.Slices ![0, 256] S3200x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S3200x128_S3200x128_0_0 : ∀ a, (![0, 0] : Fin 2 → Nat) a + S3200x128.size a ≤ S3200x128.size a
  h_S3200x128 : 0 < S3200x128.numel
  dot_S3200x256_S256x512_S3200x512_1_0_0_1_n_n_wf : DotDims.WF S3200x256 S256x512 S3200x512 [1] [0] [0] [1] [] []
  dot_S3200x256_S256x128_S3200x128_1_0_0_1_n_n_wf : DotDims.WF S3200x256 S256x128 S3200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x256.size a ≤ S400000x256.size a
  hwx0_0 : ∀ i : grid0.Coords, EltTy.bits .f32 = 32 ∨ (Rect.block (s := S400000x256) S3200x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x1.size a ≤ S400000x1.size a
  hwx0_1 : ∀ i : grid0.Coords, EltTy.bits .i32 = 32 ∨ (Rect.block (s := S400000x1) S3200x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3200x128.size a ≤ S400000x128.size a
  hwx0_5 : ∀ i : grid0.Coords, EltTy.bits .f32 = 32 ∨ (Rect.block (s := S400000x128) S3200x128.size (cc0_transform_5 i) (hinb0_5 i)).WholeWords (EltTy.packing .f32)

variable [Facts₀]

def dot_S3200x256_S256x512_S3200x512_1_0_0_1_n_n : DotDims S3200x256 S256x512 S3200x512 where
  lhsContracting := [1]
  rhsContracting := [0]
  lhsNonContracting := [0]
  rhsNonContracting := [1]
  lhsBatch := []
  rhsBatch := []
  wf := dot_S3200x256_S256x512_S3200x512_1_0_0_1_n_n_wf
def dot_S3200x256_S256x128_S3200x128_1_0_0_1_n_n : DotDims S3200x256 S256x128 S3200x128 where
  lhsContracting := [1]
  rhsContracting := [0]
  lhsNonContracting := [0]
  rhsNonContracting := [1]
  lhsBatch := []
  rhsBatch := []
  wf := dot_S3200x256_S256x128_S3200x128_1_0_0_1_n_n_wf

abbrev win0_0 : Pipeline.Window sig grid0 :=
  Pipeline.Window.ofSpec (Memref.whole main_arg0) S3200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S3200x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S3200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S400000x256 : Shape := ⟨2, ![400000, 256]⟩
abbrev S400000 : Shape := ⟨1, ![400000]⟩
abbrev S2x118x256 : Shape := ⟨3, ![2, 118, 256]⟩
abbrev S256x128 : Shape := ⟨2, ![256, 128]⟩
abbrev S128 : Shape := ⟨1, ![128]⟩
abbrev S_ : Shape := ⟨0, ![]⟩
abbrev S400000x1 : Shape := ⟨2, ![400000, 1]⟩
abbrev S2x400000x256 : Shape := ⟨3, ![2, 400000, 256]⟩
abbrev S1x400000x256 : Shape := ⟨3, ![1, 400000, 256]⟩
abbrev S400000x128 : Shape := ⟨2, ![400000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S400000x256, .f32⟩
  | .hbm, ⟨1, _⟩ => ⟨S400000, .i32⟩
  | .hbm, ⟨2, _⟩ => ⟨S2x118x256, .f32⟩
  | .hbm, ⟨3, _⟩ => ⟨S256x128, .f32⟩
  | .hbm, ⟨4, _⟩ => ⟨S128, .f32⟩
  | .hbm, ⟨5, _⟩ => ⟨S_, .i32⟩
  | .hbm, ⟨6, _⟩ => ⟨S400000, .i32⟩
  | .hbm, ⟨7, _⟩ => ⟨S400000, .i1⟩
  | .hbm, ⟨8, _⟩ => ⟨S_, .i32⟩
  | .hbm, ⟨9, _⟩ => ⟨S400000, .i32⟩
  | .hbm, ⟨10, _⟩ => ⟨S400000, .i32⟩
  | .hbm, ⟨11, _⟩ => ⟨S400000, .i32⟩
  | .hbm, ⟨12, _⟩ => ⟨S400000x1, .i32⟩
  | .hbm, ⟨13, _⟩ => ⟨S2x400000x256, .f32⟩
  | .hbm, ⟨14, _⟩ => ⟨S1x400000x256, .f32⟩
  | .hbm, ⟨15, _⟩ => ⟨S400000x256, .f32⟩
  | .hbm, ⟨16, _⟩ => ⟨S400000x256, .f32⟩
  | .hbm, ⟨17, _⟩ => ⟨S1x400000x256, .f32⟩
  | .hbm, ⟨18, _⟩ => ⟨S400000x256, .f32⟩
  | .hbm, ⟨19, _⟩ => ⟨S400000x256, .f32⟩
  | .hbm, ⟨20, _⟩ => ⟨S400000x256, .f32⟩
  | .hbm, ⟨21, _⟩ => ⟨S400000x256, .f32⟩
  | .hbm, ⟨22, _⟩ => ⟨S400000x128, .f32⟩
  | .hbm, ⟨23, _⟩ => ⟨S1x128, .f32⟩
  | .hbm, ⟨24, _⟩ => ⟨S400000x128, .f32⟩
  | .hbm, ⟨25, _⟩ => ⟨S400000x128, .f32⟩
  | _, _ => ⟨S400000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  slices_S2x400000x256_S1x400000x256_0_0_0 : S2x400000x256.Slices ![0, 0, 0] S1x400000x256
  shapeCasts_S1x400000x256_S400000x256 : S1x400000x256.ShapeCasts S400000x256
  slices_S2x400000x256_S1x400000x256_1_0_0 : S2x400000x256.Slices ![1, 0, 0] S1x400000x256
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  gather_S2x118x256_S400000x1_S2x400000x256_02_1_n_n_1_1_21256_wf : GatherDims.WF S2x118x256 S400000x1 S2x400000x256 [0, 2] [1] [] [1] [] 1 ![2, 1, 256]
  dot_S400000x256_S256x128_S400000x128_1_0_0_1_n_n_wf : DotDims.WF S400000x256 S256x128 S400000x128 [1] [0] [0] [1] [] []

variable [Facts₀]

def gather_S2x118x256_S400000x1_S2x400000x256_02_1_n_n_1_1_21256 : GatherDims S2x118x256 S400000x1 S2x400000x256 where
  offsetDims := [0, 2]
  collapsedSliceDims := [1]
  operandBatchingDims := []
  startIndicesBatchingDims := []
  startIndexMap := [1]
  indexVectorDim := 1
  sliceSizes := ![2, 1, 256]
  wf := gather_S2x118x256_S400000x1_S2x400000x256_02_1_n_n_1_1_21256_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf

class Facts : Prop extends Facts₀ where

variable [Facts]
-- ==== Proof.Spec.lean ====
/-
  The function both programs compute, stated once over the argument arrays.

  A node n carries a species word a[n]; the word names row (a[n]) of each of the two weight tables
  cw[0], cw[1] : [118, 256]. The contracted features are
      basis[n, d] = cw[0, row, d] · x[n, d] + cw[1, row, d] · (x[n, d] · x[n, d])
  and the result is the linear layer on top of them,
      G[n, f] = (∑ d, basis[n, d] · lw[d, f]) + lb[f],
  all on the extended reals. Below it, the facts about 32-bit words that the two programs' index
  handling rests on: a word in [0, 118) names its own row; adding 118 to a negative word is never
  taken for such a word; and comparing the low seven bits of a column number j < 256 with such a word
  is one exactly at the two columns j = a and j = a + 128. Last, a sum against that indicator picks
  out the entry at a when the upper 128 entries vanish.
-/
import Idealize.ShloMosaic.PureOps.Ideal
import Idealize.ShloMosaic.Lib.ValueIdx
import Idealize.ShloMosaic.Lib.Affine

noncomputable section

open scoped BigOperators

namespace Cert.Contraction

open Idealize.ShloMosaic Idealize.ShloMosaic.ValueIdx

/-- The table row a species word names: the word read signed and clamped into the 118 rows. -/
def row (w : BitVec 32) : Fin 118 := ⟨min w.toInt.toNat 117, by omega⟩

/-- Entry (n, d) of the contracted features: the species' two weight rows against x and x². -/
def basis (x : (⟨2, ![400000, 256]⟩ : Shape).Idx → EReal) (a : (⟨1, ![400000]⟩ : Shape).Idx → BitVec 32)
    (cw : (⟨3, ![2, 118, 256]⟩ : Shape).Idx → EReal) (n : Fin 400000) (d : Fin 256) : EReal :=
  cw (ix3 (0 : Fin 2) (row (a (ix1 n))) d) * x (ix2 n d)
    + cw (ix3 (1 : Fin 2) (row (a (ix1 n))) d) * (x (ix2 n d) * x (ix2 n d))

/-- Entry (n, f) of the result: the features of node n against column f of the linear map, plus the bias. -/
def out (x : (⟨2, ![400000, 256]⟩ : Shape).Idx → EReal) (a : (⟨1, ![400000]⟩ : Shape).Idx → BitVec 32)
    (cw : (⟨3, ![2, 118, 256]⟩ : Shape).Idx → EReal) (lw : (⟨2, ![256, 128]⟩ : Shape).Idx → EReal)
    (lb : (⟨1, ![128]⟩ : Shape).Idx → EReal) (n : Fin 400000) (f : Fin 128) : EReal :=
  (∑ d : Fin 256, basis x a cw n d * lw (ix2 d f)) + lb (ix1 f)

/-- The whole result array. -/
def G (x : (⟨2, ![400000, 256]⟩ : Shape).Idx → EReal) (a : (⟨1, ![400000]⟩ : Shape).Idx → BitVec 32)
    (cw : (⟨3, ![2, 118, 256]⟩ : Shape).Idx → EReal) (lw : (⟨2, ![256, 128]⟩ : Shape).Idx → EReal)
    (lb : (⟨1, ![128]⟩ : Shape).Idx → EReal) : (⟨2, ![400000, 128]⟩ : Shape).Idx → EReal :=
  fun i => out x a cw lw lb ⟨(i 0).val, (i 0).isLt⟩ ⟨(i 1).val, (i 1).isLt⟩

theorem G_ix2 (x : (⟨2, ![400000, 256]⟩ : Shape).Idx → EReal) (a : (⟨1, ![400000]⟩ : Shape).Idx → BitVec 32)
    (cw : (⟨3, ![2, 118, 256]⟩ : Shape).Idx → EReal) (lw : (⟨2, ![256, 128]⟩ : Shape).Idx → EReal)
    (lb : (⟨1, ![128]⟩ : Shape).Idx → EReal) (n : Fin 400000) (f : Fin 128) :
    G x a cw lw lb (ix2 n f) = out x a cw lw lb n f := rfl

/-! ## Species words -/

/-- A word that is at least 0 and below 118 as a signed number is below 118 as a natural number. -/
theorem toNat_lt_of_range (w : BitVec 32) (h0 : IntOp.cmpi .sge w 0#32 = 1#1) (h1 : IntOp.cmpi .slt w 118#32 = 1#1) :
    w.toNat < 118 := by
  rw [IntOp.cmpi_sge] at h0
  rw [IntOp.cmpi_slt] at h1
  have e0 : (0#32 : BitVec 32).toInt = 0 := by decide
  have e1 : (118#32 : BitVec 32).toInt = 118 := by decide
  rw [e0] at h0
  rw [e1] at h1
  have hlt := w.isLt
  rw [BitVec.toInt_eq_toNat_cond] at h0 h1
  split at h1
  · omega
  · omega

/-- Read signed, such a word is its natural value. -/
theorem toInt_of_lt (w : BitVec 32) (h : w.toNat < 118) : w.toInt = (w.toNat : Int) := by
  rw [BitVec.toInt_eq_toNat_cond, if_pos (by omega)]

/-- So it names its own row. -/
theorem row_of_lt (w : BitVec 32) (h : w.toNat < 118) : row w = ⟨w.toNat, h⟩ := by
  apply Fin.ext
  show min w.toInt.toNat 117 = w.toNat
  rw [toInt_of_lt w h, Int.toNat_natCast]
  omega

/-- The reference's wrap of a negative index (add 118 when below zero) leaves such a word alone. -/
theorem wrap_of_lt (w : BitVec 32) (h : w.toNat < 118) :
    Scalar.select (IntOp.cmpi .slt w 0#32) (IntOp.addi w 118#32) w = w := by
  have hn : IntOp.cmpi .slt w 0#32 ≠ 1#1 := by
    rw [Ne, IntOp.cmpi_slt, toInt_of_lt w h]
    have e0 : (0#32 : BitVec 32).toInt = 0 := by decide
    rw [e0]
    omega
  unfold Scalar.select
  exact if_neg hn

/-- The low seven bits of a column number below 256. -/
theorem low7 : ∀ j : Fin 256, IntOp.andi (BitVec.ofNat 32 j.val) 127#32 = BitVec.ofNat 32 (j.val % 128) := by
  decide +kernel

/-- The kernel's indicator at column j of a node whose word is w: one when j and w agree modulo 128, else zero. -/
theorem indicator (j : Fin 256) (w : BitVec 32) (hw : w.toNat < 118) :
    (FloatOps.sitofp (F := Ideal) .f32 ((IntOp.cmpi .eq (IntOp.andi (BitVec.ofNat 32 j.val) 127#32) w).setWidth 32) : EReal)
      = if j.val % 128 = w.toNat then 1 else 0 := by
  rw [low7]
  have hj : j.val % 128 < 128 := Nat.mod_lt _ (by decide)
  by_cases h : j.val % 128 = w.toNat
  · have e : BitVec.ofNat 32 (j.val % 128) = w := by
      apply BitVec.eq_of_toNat_eq
      rw [BitVec.toNat_ofNat, h]
      exact Nat.mod_eq_of_lt w.isLt
    rw [if_pos h, e]
    show (((((IntOp.cmpi .eq w w).setWidth 32).toInt : ℝ)) : EReal) = 1
    have : IntOp.cmpi .eq w w = 1#1 := by simp [IntOp.cmpi]
    rw [this]
    have : ((1#1 : BitVec 1).setWidth 32).toInt = 1 := by decide
    rw [this]
    simp
  · have ne : BitVec.ofNat 32 (j.val % 128) ≠ w := by
      intro e
      apply h
      have := congrArg BitVec.toNat e
      rw [BitVec.toNat_ofNat, Nat.mod_eq_of_lt (by omega)] at this
      exact this
    rw [if_neg h]
    show (((((IntOp.cmpi .eq (BitVec.ofNat 32 (j.val % 128)) w).setWidth 32).toInt : ℝ)) : EReal) = 0
    have : IntOp.cmpi .eq (BitVec.ofNat 32 (j.val % 128)) w = 0#1 := by
      show BitVec.ofBool (BitVec.ofNat 32 (j.val % 128) == w) = 0#1
      rw [beq_eq_false_iff_ne.mpr ne]
      rfl
    rw [this]
    have : ((0#1 : BitVec 1).setWidth 32).toInt = 0 := by decide
    rw [this]
    simp

/-! ## Selecting a row by the indicator -/

/-- Against the indicator of a < 128, a family of 256 extended reals whose upper half vanishes sums to its
    entry at a: the indicator is one at a and at a + 128 only, and the entry at a + 128 is zero. -/
theorem sum_indicator (t : Fin 256 → EReal) (a : Nat) (ha : a < 128) (hz : ∀ j : Fin 256, 128 ≤ j.val → t j = 0) :
    ∑ j : Fin 256, (if j.val % 128 = a then (1 : EReal) else 0) * t j = t ⟨a, by omega⟩ := by
  rw [Finset.sum_eq_single (⟨a, by omega⟩ : Fin 256)]
  · rw [if_pos (Nat.mod_eq_of_lt ha), one_mul]
  · intro j _ hne
    by_cases hj : j.val % 128 = a
    · have hge : 128 ≤ j.val := by
        by_contra hlt
        apply hne
        apply Fin.ext
        show j.val = a
        rw [← hj, Nat.mod_eq_of_lt (by omega)]
      rw [hz j hge, mul_zero]
    · rw [if_neg hj, zero_mul]
  · intro h
    exact absurd (Finset.mem_univ _) h

end Cert.Contraction

end
-- ==== Proof.RefSide.lean ====
/-
  The reference computes G.

  Its program gathers, for each node, the two weight rows its species word names (the word first wrapped
  Python-style when negative, then clamped by the gather into the table), multiplies them with x and x², adds,
  applies the linear map and adds the bias. Read at an index (n, f), operation by operation, that is the
  specification's entry: for a word in [0, 118) the wrap does nothing and the clamped start index is the word's row.
-/
import proofs.«404822_j44203803410587_3_alg».proof.Proof.Gen.ReferenceIdeal.Read
import proofs.«404822_j44203803410587_3_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Contraction

/-! ## The gather along the table's middle axis, read at an index

Result index (k, n, d) reads the table at (k, r, d): the two offset axes of the result carry k and d to the table's
outer and inner axes, and the collapsed middle axis takes node n's start index, read signed and clamped. One lemma
per table axis, then the read. -/

theorem gather_axis0 (idx : IVec S400000x1 32) (k : Fin 2) (n : Fin 400000) (d : Fin 256) :
    gather_S2x118x256_S400000x1_S2x400000x256_02_1_n_n_1_1_21256.start (ix3 k n d) idx (0 : Fin S2x118x256.rank)
      + gather_S2x118x256_S400000x1_S2x400000x256_02_1_n_n_1_1_21256.batchCoord (ix3 k n d) (0 : Fin S2x118x256.rank)
      + gather_S2x118x256_S400000x1_S2x400000x256_02_1_n_n_1_1_21256.offCoord (ix3 k n d) (0 : Fin S2x118x256.rank) = k.val := by
  rw [GatherDims.batchCoord_eq_zero _ _ _ List.not_mem_nil]
  unfold GatherDims.start
  rw [dif_neg (show ¬ (0 : Fin S2x118x256.rank) ∈ gather_S2x118x256_S400000x1_S2x400000x256_02_1_n_n_1_1_21256.startIndexMap by decide)]
  unfold GatherDims.offCoord
  rw [dif_pos (show (0 : Fin S2x118x256.rank) ∈ gather_S2x118x256_S400000x1_S2x400000x256_02_1_n_n_1_1_21256.sKept by decide)]
  show 0 + 0 + k.val = k.val
  omega

theorem gather_axis1 (idx : IVec S400000x1 32) (k : Fin 2) (n : Fin 400000) (d : Fin 256) :
    gather_S2x118x256_S400000x1_S2x400000x256_02_1_n_n_1_1_21256.start (ix3 k n d) idx (1 : Fin S2x118x256.rank)
      + gather_S2x118x256_S400000x1_S2x400000x256_02_1_n_n_1_1_21256.batchCoord (ix3 k n d) (1 : Fin S2x118x256.rank)
      + gather_S2x118x256_S400000x1_S2x400000x256_02_1_n_n_1_1_21256.offCoord (ix3 k n d) (1 : Fin S2x118x256.rank)
      = (row (idx (ix2 n (0 : Fin 1)))).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin S2x118x256.rank) ∈ gather_S2x118x256_S400000x1_S2x400000x256_02_1_n_n_1_1_21256.startIndexMap from List.mem_singleton.mpr rfl)]
  have hsi : gather_S2x118x256_S400000x1_S2x400000x256_02_1_n_n_1_1_21256.siIdx (ix3 k n d)
      ⟨List.idxOf (1 : Fin S2x118x256.rank) gather_S2x118x256_S400000x1_S2x400000x256_02_1_n_n_1_1_21256.startIndexMap,
        List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

theorem gather_axis2 (idx : IVec S400000x1 32) (k : Fin 2) (n : Fin 400000) (d : Fin 256) :
    gather_S2x118x256_S400000x1_S2x400000x256_02_1_n_n_1_1_21256.start (ix3 k n d) idx (2 : Fin S2x118x256.rank)
      + gather_S2x118x256_S400000x1_S2x400000x256_02_1_n_n_1_1_21256.batchCoord (ix3 k n d) (2 : Fin S2x118x256.rank)
      + gather_S2x118x256_S400000x1_S2x400000x256_02_1_n_n_1_1_21256.offCoord (ix3 k n d) (2 : Fin S2x118x256.rank) = d.val := by
  rw [GatherDims.batchCoord_eq_zero _ _ _ List.not_mem_nil]
  unfold GatherDims.start
  rw [dif_neg (show ¬ (2 : Fin S2x118x256.rank) ∈ gather_S2x118x256_S400000x1_S2x400000x256_02_1_n_n_1_1_21256.startIndexMap by decide)]
  unfold GatherDims.offCoord
  rw [dif_pos (show (2 : Fin S2x118x256.rank) ∈ gather_S2x118x256_S400000x1_S2x400000x256_02_1_n_n_1_1_21256.sKept by decide)]
  show 0 + 0 + d.val = d.val
  omega

theorem gather_apply {α : Type} (x : S2x118x256.Idx → α) (idx : IVec S400000x1 32) (k : Fin 2) (n : Fin 400000) (d : Fin 256) :
    Host.gather gather_S2x118x256_S400000x1_S2x400000x256_02_1_n_n_1_1_21256 x idx (ix3 k n d)
      = x (ix3 k (row (idx (ix2 n (0 : Fin 1)))) d) := by
  unfold Host.gather
  congr 1
  funext a
  refine Fin.ext ?_
  match a with
  | ⟨0, _⟩ => exact gather_axis0 idx k n d
  | ⟨1, _⟩ => exact gather_axis1 idx k n d
  | ⟨2, _⟩ => exact gather_axis2 idx k n d

/-! ## The start index of node n -/

/-- For a species word in [0, 118) the start index the gather reads for node n is the word itself. -/
theorem start_word (x1 : (⟨S400000, .i32⟩ : BufTy).Contents (Elt Ideal)) (hr : ∀ n : Fin 400000, (x1 (ix1 n)).toNat < 118)
    (n : Fin 400000) : val_main_v5 (F := Ideal) x1 (ix2 n (0 : Fin 1)) = x1 (ix1 n) := by
  rw [val_main_v5_apply]
  have e : idx_main_v5 (ix2 n (0 : Fin 1)) = ix1 n := by
    funext a; match a with | ⟨0, _⟩ => rfl
  rw [e, val_main_v4_apply, val_main_v1_apply, val_main_v3_apply, val_main_v0_apply, val_main_v2_apply, val_main_c_apply,
    val_main_c_0_apply]
  exact wrap_of_lt _ (hr n)

/-- A gathered weight row read at (n, d), after the slice that picks table k and the reshape that drops its unit axis. -/
theorem gathered0 (x1 : (⟨S400000, .i32⟩ : BufTy).Contents (Elt Ideal)) (x2 : (⟨S2x118x256, .f32⟩ : BufTy).Contents (Elt Ideal))
    (hr : ∀ n : Fin 400000, (x1 (ix1 n)).toNat < 118) (n : Fin 400000) (d : Fin 256) :
    val_main_v8 (F := Ideal) x1 x2 (ix2 n d) = x2 (ix3 (0 : Fin 2) (row (x1 (ix1 n))) d) := by
  rw [val_main_v8_apply, val_main_v7_apply]
  have e : idx_main_v7 (idx_main_v8 (ix2 n d)) = ix3 (0 : Fin 2) n d := by
    funext a; refine Fin.ext ?_
    have hn := n.isLt; have hd := d.isLt
    match a with
    | ⟨0, _⟩ => rfl
    | ⟨1, _⟩ => show (n.val * 256 + d.val) / 256 % 400000 = n.val; omega
    | ⟨2, _⟩ => show (n.val * 256 + d.val) % 256 = d.val; omega
  rw [e]
  unfold val_main_v6
  rw [gather_apply, start_word x1 hr]

theorem gathered1 (x1 : (⟨S400000, .i32⟩ : BufTy).Contents (Elt Ideal)) (x2 : (⟨S2x118x256, .f32⟩ : BufTy).Contents (Elt Ideal))
    (hr : ∀ n : Fin 400000, (x1 (ix1 n)).toNat < 118) (n : Fin 400000) (d : Fin 256) :
    val_main_v11 (F := Ideal) x1 x2 (ix2 n d) = x2 (ix3 (1 : Fin 2) (row (x1 (ix1 n))) d) := by
  rw [val_main_v11_apply, val_main_v10_apply]
  have e : idx_main_v10 (idx_main_v11 (ix2 n d)) = ix3 (1 : Fin 2) n d := by
    funext a; refine Fin.ext ?_
    have hn := n.isLt; have hd := d.isLt
    match a with
    | ⟨0, _⟩ => rfl
    | ⟨1, _⟩ => show (n.val * 256 + d.val) / 256 % 400000 = n.val; omega
    | ⟨2, _⟩ => show (n.val * 256 + d.val) % 256 = d.val; omega
  rw [e]
  unfold val_main_v6
  rw [gather_apply, start_word x1 hr]

/-! ## The result -/

/-- THE REFERENCE IS G: its last stage, index by index, is the specification, for species words in [0, 118). -/
theorem ref_eq (x0 : (⟨S400000x256, .f32⟩ : BufTy).Contents (Elt Ideal)) (x1 : (⟨S400000, .i32⟩ : BufTy).Contents (Elt Ideal))
    (x2 : (⟨S2x118x256, .f32⟩ : BufTy).Contents (Elt Ideal)) (x3 : (⟨S256x128, .f32⟩ : BufTy).Contents (Elt Ideal))
    (x4 : (⟨S128, .f32⟩ : BufTy).Contents (Elt Ideal)) (hr : ∀ n : Fin 400000, (x1 (ix1 n)).toNat < 118) :
    val_main_v18 (F := Ideal) x0 x1 x2 x3 x4 = G x0 x1 x2 x3 x4 := by
  funext i
  obtain ⟨n, f, rfl⟩ : ∃ (n : Fin 400000) (f : Fin 128), i = ix2 n f := ⟨i 0, i 1, eq_ix2 i⟩
  rw [G_ix2, val_main_v18_apply, val_main_v15_apply, val_main_v17_apply, val_main_v16_apply]
  have eb : idx_main_v16 (idx_main_v17 (ix2 n f)) = ix1 f := by
    funext a; match a with | ⟨0, _⟩ => rfl
  have el : ∀ k : Fin 256, lidx_main_v15 (ix2 n f) k = ix2 n k := fun k => by
    funext a; match a with | ⟨0, _⟩ => rfl | ⟨1, _⟩ => rfl
  have er : ∀ k : Fin 256, ridx_main_v15 (ix2 n f) k = ix2 k f := fun k => by
    funext a; match a with | ⟨0, _⟩ => rfl | ⟨1, _⟩ => rfl
  rw [eb]
  unfold out
  show (∑ k : Fin 256, _) + _ = _
  refine congrArg (· + x4 (ix1 f)) (Finset.sum_congr rfl fun k _ => ?_)
  rw [el, er, val_main_v14_apply, val_main_v9_apply, val_main_v13_apply, val_main_v12_apply, gathered0 x1 x2 hr, gathered1 x1 x2 hr]
  rfl

end Cert.ReferenceIdeal.RefValue

end
-- ==== Proof.Payload.lean ====
/-
  What the kernel body stores for one block of 3200 nodes, read at an index.

  The body builds, for every node p of the block and every column j < 256, the indicator of "j and the node's species
  word agree in their low seven bits", and multiplies that 3200 × 256 matrix into the stacked 256 × 512 table. For a
  word a in [0, 118) the indicator is one at j = a and j = a + 128 only; when the table's lower half (rows 128 … 255)
  is zero the product's row p is therefore the table's row a. Its left and right halves are the species' two weight
  rows; they meet x and x², the sum goes through the linear map and the bias is added. The two matrix products are
  plain sums over their one contraction axis at the exact values.
-/
import proofs.«404822_j44203803410587_3_alg».proof.Proof.Gen.KernelIdeal.Skeleton
import proofs.«404822_j44203803410587_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx Cert.Contraction

/-! ## The two matrix products as sums over the contraction coordinate -/

theorem sel_lhs_0 (i : S3200x512.Idx) (q : dot_S3200x256_S256x512_S3200x512_1_0_0_1_n_n.contr.Idx) :
    (dot_S3200x256_S256x512_S3200x512_1_0_0_1_n_n.lhsIdx i q 0).val = (i 0).val := by
  unfold DotDims.lhsIdx
  rw [dif_neg (show ¬(0 : Fin S3200x256.rank) ∈ dot_S3200x256_S256x512_S3200x512_1_0_0_1_n_n.lhsBatch by decide), dif_pos (show (0 : Fin S3200x256.rank) ∈ dot_S3200x256_S256x512_S3200x512_1_0_0_1_n_n.lhsNonContracting by decide)]
  rfl
theorem sel_lhs_1 (i : S3200x512.Idx) (q : dot_S3200x256_S256x512_S3200x512_1_0_0_1_n_n.contr.Idx) :
    (dot_S3200x256_S256x512_S3200x512_1_0_0_1_n_n.lhsIdx i q 1).val = (q ⟨0, by decide⟩).val :=
  dot_S3200x256_S256x512_S3200x512_1_0_0_1_n_n.lhsIdx_val_of_single rfl i q
theorem sel_rhs_0 (i : S3200x512.Idx) (q : dot_S3200x256_S256x512_S3200x512_1_0_0_1_n_n.contr.Idx) :
    (dot_S3200x256_S256x512_S3200x512_1_0_0_1_n_n.rhsIdx i q 0).val = (q ⟨0, by decide⟩).val :=
  dot_S3200x256_S256x512_S3200x512_1_0_0_1_n_n.rhsIdx_val_of_single rfl i q
theorem sel_rhs_1 (i : S3200x512.Idx) (q : dot_S3200x256_S256x512_S3200x512_1_0_0_1_n_n.contr.Idx) :
    (dot_S3200x256_S256x512_S3200x512_1_0_0_1_n_n.rhsIdx i q 1).val = (i 1).val := by
  unfold DotDims.rhsIdx
  rw [dif_neg (show ¬(1 : Fin S256x512.rank) ∈ dot_S3200x256_S256x512_S3200x512_1_0_0_1_n_n.rhsBatch by decide), dif_pos (show (1 : Fin S256x512.rank) ∈ dot_S3200x256_S256x512_S3200x512_1_0_0_1_n_n.rhsNonContracting by decide)]
  rfl

/-- The [3200, 256] × [256, 512] product into a zero accumulator, at (p, c): the sum over j of L[p, j] · R[j, c]. -/
theorem select_product (L : FVec Ideal S3200x256 .bf16) (R : FVec Ideal S256x512 .bf16) (p : Fin 3200) (c : Fin 512) :
    matmul dot_S3200x256_S256x512_S3200x512_1_0_0_1_n_n none L R (constant S3200x512 .f32 0x00000000#32) (ix2 p c)
      = ∑ j : Fin 256, L (ix2 p j) * R (ix2 j c) := by
  simp only [matmul]
  rw [Ideal.matmul_constant_zero_apply, ← Equiv.sum_comp (contrEquiv1 dot_S3200x256_S256x512_S3200x512_1_0_0_1_n_n 256 rfl rfl).symm]
  refine Finset.sum_congr rfl fun k _ => ?_
  have hk := contrEquiv1_symm_val dot_S3200x256_S256x512_S3200x512_1_0_0_1_n_n 256 rfl rfl k
  have el : dot_S3200x256_S256x512_S3200x512_1_0_0_1_n_n.lhsIdx (ix2 p c) ((contrEquiv1 dot_S3200x256_S256x512_S3200x512_1_0_0_1_n_n 256 rfl rfl).symm k) = ix2 p k := funext fun a => Fin.ext (by
    match a with
    | ⟨0, _⟩ => exact sel_lhs_0 _ _
    | ⟨1, _⟩ => exact (sel_lhs_1 _ _).trans hk)
  have er : dot_S3200x256_S256x512_S3200x512_1_0_0_1_n_n.rhsIdx (ix2 p c) ((contrEquiv1 dot_S3200x256_S256x512_S3200x512_1_0_0_1_n_n 256 rfl rfl).symm k) = ix2 k c := funext fun a => Fin.ext (by
    match a with
    | ⟨0, _⟩ => exact (sel_rhs_0 _ _).trans hk
    | ⟨1, _⟩ => exact sel_rhs_1 _ _)
  rw [el, er]

theorem lin_lhs_0 (i : S3200x128.Idx) (q : dot_S3200x256_S256x128_S3200x128_1_0_0_1_n_n.contr.Idx) :
    (dot_S3200x256_S256x128_S3200x128_1_0_0_1_n_n.lhsIdx i q 0).val = (i 0).val := by
  unfold DotDims.lhsIdx
  rw [dif_neg (show ¬(0 : Fin S3200x256.rank) ∈ dot_S3200x256_S256x128_S3200x128_1_0_0_1_n_n.lhsBatch by decide), dif_pos (show (0 : Fin S3200x256.rank) ∈ dot_S3200x256_S256x128_S3200x128_1_0_0_1_n_n.lhsNonContracting by decide)]
  rfl
theorem lin_lhs_1 (i : S3200x128.Idx) (q : dot_S3200x256_S256x128_S3200x128_1_0_0_1_n_n.contr.Idx) :
    (dot_S3200x256_S256x128_S3200x128_1_0_0_1_n_n.lhsIdx i q 1).val = (q ⟨0, by decide⟩).val :=
  dot_S3200x256_S256x128_S3200x128_1_0_0_1_n_n.lhsIdx_val_of_single rfl i q
theorem lin_rhs_0 (i : S3200x128.Idx) (q : dot_S3200x256_S256x128_S3200x128_1_0_0_1_n_n.contr.Idx) :
    (dot_S3200x256_S256x128_S3200x128_1_0_0_1_n_n.rhsIdx i q 0).val = (q ⟨0, by decide⟩).val :=
  dot_S3200x256_S256x128_S3200x128_1_0_0_1_n_n.rhsIdx_val_of_single rfl i q
theorem lin_rhs_1 (i : S3200x128.Idx) (q : dot_S3200x256_S256x128_S3200x128_1_0_0_1_n_n.contr.Idx) :
    (dot_S3200x256_S256x128_S3200x128_1_0_0_1_n_n.rhsIdx i q 1).val = (i 1).val := by
  unfold DotDims.rhsIdx
  rw [dif_neg (show ¬(1 : Fin S256x128.rank) ∈ dot_S3200x256_S256x128_S3200x128_1_0_0_1_n_n.rhsBatch by decide), dif_pos (show (1 : Fin S256x128.rank) ∈ dot_S3200x256_S256x128_S3200x128_1_0_0_1_n_n.rhsNonContracting by decide)]
  rfl

/-- The [3200, 256] × [256, 128] product into a zero accumulator, at (p, f): the sum over d of L[p, d] · R[d, f]. -/
theorem linear_product (L : FVec Ideal S3200x256 .bf16) (R : FVec Ideal S256x128 .bf16) (p : Fin 3200) (f : Fin 128) :
    matmul dot_S3200x256_S256x128_S3200x128_1_0_0_1_n_n none L R (constant S3200x128 .f32 0x00000000#32) (ix2 p f)
      = ∑ d : Fin 256, L (ix2 p d) * R (ix2 d f) := by
  simp only [matmul]
  rw [Ideal.matmul_constant_zero_apply, ← Equiv.sum_comp (contrEquiv1 dot_S3200x256_S256x128_S3200x128_1_0_0_1_n_n 256 rfl rfl).symm]
  refine Finset.sum_congr rfl fun k _ => ?_
  have hk := contrEquiv1_symm_val dot_S3200x256_S256x128_S3200x128_1_0_0_1_n_n 256 rfl rfl k
  have el : dot_S3200x256_S256x128_S3200x128_1_0_0_1_n_n.lhsIdx (ix2 p f) ((contrEquiv1 dot_S3200x256_S256x128_S3200x128_1_0_0_1_n_n 256 rfl rfl).symm k) = ix2 p k := funext fun a => Fin.ext (by
    match a with
    | ⟨0, _⟩ => exact lin_lhs_0 _ _
    | ⟨1, _⟩ => exact (lin_lhs_1 _ _).trans hk)
  have er : dot_S3200x256_S256x128_S3200x128_1_0_0_1_n_n.rhsIdx (ix2 p f) ((contrEquiv1 dot_S3200x256_S256x128_S3200x128_1_0_0_1_n_n 256 rfl rfl).symm k) = ix2 k f := funext fun a => Fin.ext (by
    match a with
    | ⟨0, _⟩ => exact (lin_rhs_0 _ _).trans hk
    | ⟨1, _⟩ => exact lin_rhs_1 _ _)
  rw [el, er]

/-! ## The body's stages -/

section Stages
variable {F : FTy → Type} [FloatOps F]

/-- The indicator matrix: entry (p, j) compares the low seven bits of j with node p's species word. -/
def onehot (a1 : Vec F S3200x1 .i32) : FVec F S3200x256 .bf16 :=
  truncf .bf16 (sitofp .f32 (extui 32 (cmpi .eq (andi (iota .tc S3200x256 32 [1] iota_S3200x256_d1_w32) (broadcast S3200x256 127#32))
    (broadcastTo S3200x256 (shapeCast S3200x1 a1 shapeCasts_S3200x1_S3200x1) broadcasts_S3200x1_S3200x256)) natLt_1_32)) bitsLt_bf16_f32

/-- The indicator matrix against the stacked table. -/
def gathered (a1 : Vec F S3200x1 .i32) (tb : Vec F S256x512 .bf16) : FVec F S3200x512 .f32 :=
  matmul dot_S3200x256_S256x512_S3200x512_1_0_0_1_n_n none (onehot a1) (shapeCast S256x512 tb shapeCasts_S256x512_S256x512) (constant S3200x512 .f32 0x00000000#32)

/-- The contracted features of the block: left half of the gathered rows against x, right half against x². -/
def feats (x0 : Vec F S3200x256 .f32) (a1 : Vec F S3200x1 .i32) (tb : Vec F S256x512 .bf16) : FVec F S3200x256 .f32 :=
  addf (mulf (extractStridedSlice S3200x256 ![0, 0] (gathered a1 tb) slices_S3200x512_o0_0_S3200x256) x0)
    (mulf (extractStridedSlice S3200x256 ![0, 256] (gathered a1 tb) slices_S3200x512_o0_256_S3200x256) (mulf x0 x0))

/-- The stored value is the linear map of the features plus the bias row. -/
theorem pay_eq (x0 : Vec F S3200x256 .f32) (a1 : Vec F S3200x1 .i32) (tb : Vec F S256x512 .bf16)
    (lw : Vec F S256x128 .bf16) (lb : Vec F S1x128 .f32) :
    k0_pay1 (F := F) x0 a1 tb lw lb
      = addf (matmul dot_S3200x256_S256x128_S3200x128_1_0_0_1_n_n none (truncf .bf16 (feats x0 a1 tb) bitsLt_bf16_f32) (shapeCast S256x128 lw shapeCasts_S256x128_S256x128) (constant S3200x128 .f32 0x00000000#32))
          (broadcastTo S3200x128 (shapeCast S1x128 lb shapeCasts_S1x128_S1x128) broadcasts_S1x128_S3200x128) := rfl

end Stages

/-- The indicator at (p, j), for a node whose species word w is in [0, 118). -/
theorem onehot_apply (a1 : Vec Ideal S3200x1 .i32) (p : Fin 3200) (j : Fin 256) (w : BitVec 32)
    (hpw : a1 (ix2 p (0 : Fin 1)) = w) (hw : w.toNat < 118) :
    onehot (F := Ideal) a1 (ix2 p j) = if j.val % 128 = w.toNat then (1 : EReal) else 0 := by
  have e1 : iota .tc S3200x256 32 [1] iota_S3200x256_d1_w32 (ix2 p j) = BitVec.ofNat 32 j.val :=
    iota_single_apply .tc S3200x256 32 1 iota_S3200x256_d1_w32 (ix2 p j)
  have e2 : broadcastTo S3200x256 (shapeCast S3200x1 a1 shapeCasts_S3200x1_S3200x1) broadcasts_S3200x1_S3200x256 (ix2 p j)
      = a1 (ix2 p (0 : Fin 1)) := by
    rw [shapeCast_self]
    exact broadcastTo_apply a1 broadcasts_S3200x1_S3200x256 (ix2 p j) (ix2 p (0 : Fin 1)) (fun a => match a with
      | ⟨0, _⟩ => by show p.val = if (3200 : Nat) = 1 then 0 else p.val; rw [if_neg (by decide)]
      | ⟨1, _⟩ => by show 0 = if (1 : Nat) = 1 then 0 else j.val; rw [if_pos rfl])
  show (FloatOps.sitofp (F := Ideal) .f32 ((IntOp.cmpi .eq (IntOp.andi (iota .tc S3200x256 32 [1] iota_S3200x256_d1_w32 (ix2 p j)) 127#32)
    (broadcastTo S3200x256 (shapeCast S3200x1 a1 shapeCasts_S3200x1_S3200x1) broadcasts_S3200x1_S3200x256 (ix2 p j))).setWidth 32) : EReal) = _
  rw [e1, e2, hpw]
  exact indicator j w hw

/-- Row p of the product is the table's row at the node's species word, when the table's lower half is zero. -/
theorem gathered_apply (a1 : Vec Ideal S3200x1 .i32) (tb : Vec Ideal S256x512 .bf16) (p : Fin 3200) (c : Fin 512) (w : BitVec 32)
    (hpw : a1 (ix2 p (0 : Fin 1)) = w) (hw : w.toNat < 118) (hz : ∀ (j : Fin 256) (c : Fin 512), 128 ≤ j.val → tb (ix2 j c) = 0) :
    gathered (F := Ideal) a1 tb (ix2 p c) = tb (ix2 (⟨w.toNat, by omega⟩ : Fin 256) c) := by
  unfold gathered
  rw [shapeCast_self, select_product]
  rw [Finset.sum_congr rfl fun j _ => by rw [onehot_apply a1 p j w hpw hw]]
  exact sum_indicator (fun j => tb (ix2 j c)) _ (by omega) (fun j hj => hz j c hj)

/-- The left half of a [3200, 512] array, at (p, d): the array at (p, d). -/
theorem left_half (g : FVec Ideal S3200x512 .f32) (p : Fin 3200) (d : Fin 256) :
    extractStridedSlice S3200x256 ![0, 0] g slices_S3200x512_o0_0_S3200x256 (ix2 p d) = g (ix2 p (⟨d.val, by omega⟩ : Fin 512)) :=
  extractStridedSlice_apply ![0, 0] g slices_S3200x512_o0_0_S3200x256 (ix2 p d) (ix2 p (⟨d.val, by omega⟩ : Fin 512)) (fun a => match a with
    | ⟨0, _⟩ => by show p.val = 0 + p.val; omega
    | ⟨1, _⟩ => by show d.val = 0 + d.val; omega)

/-- The right half, at (p, d): the array at (p, 256 + d). -/
theorem right_half (g : FVec Ideal S3200x512 .f32) (p : Fin 3200) (d : Fin 256) :
    extractStridedSlice S3200x256 ![0, 256] g slices_S3200x512_o0_256_S3200x256 (ix2 p d) = g (ix2 p (⟨256 + d.val, by omega⟩ : Fin 512)) :=
  extractStridedSlice_apply ![0, 256] g slices_S3200x512_o0_256_S3200x256 (ix2 p d) (ix2 p (⟨256 + d.val, by omega⟩ : Fin 512)) (fun a => match a with
    | ⟨0, _⟩ => by show p.val = 0 + p.val; omega
    | ⟨1, _⟩ => by show 256 + d.val = 256 + d.val; rfl)

/-- The features at (p, d): the species' two weight entries against x and x². -/
theorem feats_apply (x0 : Vec Ideal S3200x256 .f32) (a1 : Vec Ideal S3200x1 .i32) (tb : Vec Ideal S256x512 .bf16) (p : Fin 3200) (d : Fin 256)
    (w : BitVec 32) (hpw : a1 (ix2 p (0 : Fin 1)) = w) (hw : w.toNat < 118)
    (hz : ∀ (j : Fin 256) (c : Fin 512), 128 ≤ j.val → tb (ix2 j c) = 0) :
    feats (F := Ideal) x0 a1 tb (ix2 p d)
      = tb (ix2 (⟨w.toNat, by omega⟩ : Fin 256) (⟨d.val, by omega⟩ : Fin 512)) * x0 (ix2 p d)
        + tb (ix2 (⟨w.toNat, by omega⟩ : Fin 256) (⟨256 + d.val, by omega⟩ : Fin 512)) * (x0 (ix2 p d) * x0 (ix2 p d)) := by
  show extractStridedSlice S3200x256 ![0, 0] (gathered (F := Ideal) a1 tb) slices_S3200x512_o0_0_S3200x256 (ix2 p d) * x0 (ix2 p d)
    + extractStridedSlice S3200x256 ![0, 256] (gathered (F := Ideal) a1 tb) slices_S3200x512_o0_256_S3200x256 (ix2 p d) * (x0 (ix2 p d) * x0 (ix2 p d)) = _
  rw [left_half, right_half, gathered_apply a1 tb p _ w hpw hw hz, gathered_apply a1 tb p _ w hpw hw hz]

/-- THE STORED VALUE AT (p, f). -/
theorem pay_apply (x0 : Vec Ideal S3200x256 .f32) (a1 : Vec Ideal S3200x1 .i32) (tb : Vec Ideal S256x512 .bf16)
    (lw : Vec Ideal S256x128 .bf16) (lb : Vec Ideal S1x128 .f32) (p : Fin 3200) (f : Fin 128)
    (w : BitVec 32) (hpw : a1 (ix2 p (0 : Fin 1)) = w) (hw : w.toNat < 118)
    (hz : ∀ (j : Fin 256) (c : Fin 512), 128 ≤ j.val → tb (ix2 j c) = 0) :
    k0_pay1 (F := Ideal) x0 a1 tb lw lb (ix2 p f)
      = (∑ d : Fin 256,
          (tb (ix2 (⟨w.toNat, by omega⟩ : Fin 256) (⟨d.val, by omega⟩ : Fin 512)) * x0 (ix2 p d)
            + tb (ix2 (⟨w.toNat, by omega⟩ : Fin 256) (⟨256 + d.val, by omega⟩ : Fin 512)) * (x0 (ix2 p d) * x0 (ix2 p d)))
          * lw (ix2 d f))
        + lb (ix2 (0 : Fin 1) f) := by
  rw [pay_eq]
  have eb : broadcastTo S3200x128 (shapeCast S1x128 lb shapeCasts_S1x128_S1x128) broadcasts_S1x128_S3200x128 (ix2 p f) = lb (ix2 (0 : Fin 1) f) := by
    rw [shapeCast_self]
    exact broadcastTo_apply lb broadcasts_S1x128_S3200x128 (ix2 p f) (ix2 (0 : Fin 1) f) (fun a => match a with
      | ⟨0, _⟩ => by show 0 = if (1 : Nat) = 1 then 0 else p.val; rw [if_pos rfl]
      | ⟨1, _⟩ => by show f.val = if (128 : Nat) = 1 then 0 else f.val; rw [if_neg (by decide)])
  show matmul dot_S3200x256_S256x128_S3200x128_1_0_0_1_n_n none (truncf .bf16 (feats (F := Ideal) x0 a1 tb) bitsLt_bf16_f32) (shapeCast S256x128 lw shapeCasts_S256x128_S256x128) (constant S3200x128 .f32 0x00000000#32) (ix2 p f)
    + broadcastTo S3200x128 (shapeCast S1x128 lb shapeCasts_S1x128_S1x128) broadcasts_S1x128_S3200x128 (ix2 p f) = _
  rw [eb, shapeCast_self, linear_product]
  refine congrArg (· + lb (ix2 (0 : Fin 1) f)) (Finset.sum_congr rfl fun d _ => ?_)
  show feats (F := Ideal) x0 a1 tb (ix2 p d) * lw (ix2 d f) = _
  rw [feats_apply x0 a1 tb p d w hpw hw hz]

end Cert.KernelIdeal.Payload

end
-- ==== Proof.HostPrefix.lean ====
/-
  The arrays the kernel region finds, as functions of the arguments.

  Before the launch the program pads each of the two [118, 256] weight tables with ten zero rows, sets the two padded
  tables side by side into T : [128, 512], and stacks T on top of T − T (each passed through a change of float format,
  which is the identity on exact values) into the [256, 512] table the kernel multiplies its indicator matrix into.
  Read at an index: rows below 118 of the upper half are the weight rows (left 256 columns table 0, right 256 columns
  table 1), and the lower half is x − x at entries x of T, which is zero as soon as the weights are finite numbers
  (an infinite weight would leave no zero there). The species words are reshaped to a column, the linear map passes
  through a format change, and the bias is reshaped to a row.
-/
import proofs.«404822_j44203803410587_3_alg».proof.Proof.Gen.KernelIdeal.Frame
import Idealize.ShloMosaic.Lib.StableHlo.Run
import Idealize.ShloMosaic.Lib.Pipeline.Value
import Idealize.ShloMosaic.Lib.KernelVsHost
import Idealize.ShloMosaic.Lib.ValueIdx
import Idealize.ShloMosaic.PureOps.Ideal

noncomputable section

namespace Cert.KernelIdeal.HostPrefix

open Cert.KernelIdeal Cert.KernelIdeal.Gen
open Idealize.ShloMosaic Idealize.ShloMosaic.TcCoe Idealize.SL.Sem Idealize.ShloMosaic.StableHlo Idealize.ShloMosaic.ValueIdx

/-! ## The terms -/

section Terms
variable {F : FTy → Type} [FloatOps F]

/-- Weight table 0 with ten zero rows below it. -/
def padded0 (cw : FVec F S2x118x256 .f32) : FVec F S128x256 .f32 :=
  pad S128x256 ![0, 0] ![10, 0] ![0, 0]
    (shapeCast S118x256 (extractStridedSlice S1x118x256 ![0, 0, 0] cw slices_S2x118x256_S1x118x256_0_0_0) shapeCasts_S1x118x256_S118x256)
    (sitofp .f32 (constantI S_ 32 0#32) : FVec F S_ .f32) pads_S118x256_S128x256_0100_000 h_S_

/-- Weight table 1 with ten zero rows below it. -/
def padded1 (cw : FVec F S2x118x256 .f32) : FVec F S128x256 .f32 :=
  pad S128x256 ![0, 0] ![10, 0] ![0, 0]
    (shapeCast S118x256 (extractStridedSlice S1x118x256 ![1, 0, 0] cw slices_S2x118x256_S1x118x256_1_0_0) shapeCasts_S1x118x256_S118x256)
    (sitofp .f32 (constantI S_ 32 0#32) : FVec F S_ .f32) pads_S118x256_S128x256_0100_000 h_S_

/-- The two padded tables side by side. -/
def wide (cw : FVec F S2x118x256 .f32) : FVec F S128x512 .f32 :=
  concatenate S128x512 1 [⟨S128x256, padded0 cw⟩, ⟨S128x256, padded1 cw⟩] concatenates_S128x256_S128x256_S128x512_d1

/-- The table the kernel reads: the wide table over its own residual. -/
def stacked (cw : FVec F S2x118x256 .f32) : FVec F S256x512 .bf16 :=
  concatenate S256x512 0
    [⟨S128x512, truncf .bf16 (wide cw) bitsLt_bf16_f32⟩,
     ⟨S128x512, truncf .bf16 (subf (wide cw) (extf .f32 (truncf .bf16 (wide cw) bitsLt_bf16_f32) bitsLt_bf16_f32)) bitsLt_bf16_f32⟩]
    concatenates_S128x512_S128x512_S256x512_d0

end Terms

variable (m : (ℓ : Loc nD τ sig) → Buf (Elt Ideal) ℓ)

/-- The stacked table as the region finds it. -/
theorem table_eq (c : Dev nD) :
    (V m c main_v11 : S256x512.Idx → Ideal .bf16) = stacked (F := Ideal) (m ((c : Thread nD τ).loc main_arg2)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results <;> rfl

/-- The species words as a column. -/
theorem words_eq (c : Dev nD) :
    (V m c main_v12 : S400000x1.Idx → BitVec 32) = shapeCast S400000x1 (m ((c : Thread nD τ).loc main_arg1)) shapeCasts_S400000_S400000x1 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results <;> rfl

/-- The linear map, through a format change. -/
theorem linw_eq (c : Dev nD) :
    (V m c main_v13 : S256x128.Idx → Ideal .bf16)
      = truncf (F := Ideal) (s := S256x128) (φ := .f32) .bf16 (m ((c : Thread nD τ).loc main_arg3)) bitsLt_bf16_f32 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results <;> rfl

/-- The bias as a row. -/
theorem bias_eq (c : Dev nD) :
    (V m c main_v14 : S1x128.Idx → Ideal .f32) = shapeCast S1x128 (m ((c : Thread nD τ).loc main_arg4)) shapeCasts_S128_S1x128 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results <;> rfl

/-! ## The layout operations, read at an index -/

/-- Ten rows of padding below a [118, 256] array: the array on rows below 118, the padding value from there on. -/
theorem pad_rows_apply (y : FVec Ideal S118x256 .f32) (v : FVec Ideal S_ .f32) (r : Fin 128) (d : Fin 256) :
    pad S128x256 ![0, 0] ![10, 0] ![0, 0] y v pads_S118x256_S128x256_0100_000 h_S_ (ix2 r d)
      = if h : r.val < 118 then y (ix2 (⟨r.val, h⟩ : Fin 118) d) else v ix0 := by
  by_cases h : r.val < 118
  · rw [dif_pos h]
    exact pad_apply_of_inside ![0, 0] ![10, 0] ![0, 0] y v pads_S118x256_S128x256_0100_000 h_S_ (ix2 r d) (ix2 (⟨r.val, h⟩ : Fin 118) d)
      (fun a => match a with
        | ⟨0, _⟩ => by show r.val = 0 + r.val * (0 + 1); omega
        | ⟨1, _⟩ => by show d.val = 0 + d.val * (0 + 1); omega)
  · rw [dif_neg h]
    rw [pad_apply_of_not_inside ![0, 0] ![10, 0] ![0, 0] y v pads_S118x256_S128x256_0100_000 h_S_ (ix2 r d) (0 : Fin 2)
      (by show ¬(0 ≤ r.val ∧ (r.val - 0) % (0 + 1) = 0 ∧ (r.val - 0) / (0 + 1) < 118); omega)]
    exact congrArg v (funext fun a => a.elim0)

/-- Table 0 of the weights as a [118, 256] array. -/
theorem table0_apply (cw : FVec Ideal S2x118x256 .f32) (r : Fin 118) (d : Fin 256) :
    shapeCast S118x256 (extractStridedSlice S1x118x256 ![0, 0, 0] cw slices_S2x118x256_S1x118x256_0_0_0) shapeCasts_S1x118x256_S118x256 (ix2 r d)
      = cw (ix3 (0 : Fin 2) r d) := by
  have hr := r.isLt; have hd := d.isLt
  rw [shapeCast_apply _ shapeCasts_S1x118x256_S118x256 (ix2 r d) (ix3 (0 : Fin 1) r d)
    (by rw [Shape.rowMajor_val_three, Shape.rowMajor_val_two]; show (0 * 118 + r.val) * 256 + d.val = r.val * 256 + d.val; omega)]
  exact extractStridedSlice_apply ![0, 0, 0] cw slices_S2x118x256_S1x118x256_0_0_0 (ix3 (0 : Fin 1) r d) (ix3 (0 : Fin 2) r d)
    (fun a => match a with
      | ⟨0, _⟩ => by show 0 = 0 + 0; rfl
      | ⟨1, _⟩ => by show r.val = 0 + r.val; omega
      | ⟨2, _⟩ => by show d.val = 0 + d.val; omega)

/-- Table 1 of the weights as a [118, 256] array. -/
theorem table1_apply (cw : FVec Ideal S2x118x256 .f32) (r : Fin 118) (d : Fin 256) :
    shapeCast S118x256 (extractStridedSlice S1x118x256 ![1, 0, 0] cw slices_S2x118x256_S1x118x256_1_0_0) shapeCasts_S1x118x256_S118x256 (ix2 r d)
      = cw (ix3 (1 : Fin 2) r d) := by
  have hr := r.isLt; have hd := d.isLt
  rw [shapeCast_apply _ shapeCasts_S1x118x256_S118x256 (ix2 r d) (ix3 (0 : Fin 1) r d)
    (by rw [Shape.rowMajor_val_three, Shape.rowMajor_val_two]; show (0 * 118 + r.val) * 256 + d.val = r.val * 256 + d.val; omega)]
  exact extractStridedSlice_apply ![1, 0, 0] cw slices_S2x118x256_S1x118x256_1_0_0 (ix3 (0 : Fin 1) r d) (ix3 (1 : Fin 2) r d)
    (fun a => match a with
      | ⟨0, _⟩ => by show 1 = 1 + 0; rfl
      | ⟨1, _⟩ => by show r.val = 0 + r.val; omega
      | ⟨2, _⟩ => by show d.val = 0 + d.val; omega)

/-- Two [128, 256] arrays side by side: the first on columns below 256, the second from there on. -/
theorem side_by_side_apply (u v : FVec Ideal S128x256 .f32) (r : Fin 128) (c : Fin 512) :
    concatenate S128x512 1 [⟨S128x256, u⟩, ⟨S128x256, v⟩] concatenates_S128x256_S128x256_S128x512_d1 (ix2 r c)
      = if h : c.val < 256 then u (ix2 r (⟨c.val, h⟩ : Fin 256)) else v (ix2 r (⟨c.val - 256, by omega⟩ : Fin 256)) := by
  by_cases h : c.val < 256
  · rw [dif_pos h]
    exact concatenate_pair_apply_left (1 : Fin S128x512.rank) u v concatenates_S128x256_S128x256_S128x512_d1 (ix2 r c) rfl
      (ix2 r (⟨c.val, h⟩ : Fin 256)) (fun b => match b with
        | ⟨0, _⟩ => rfl
        | ⟨1, _⟩ => rfl)
  · rw [dif_neg h]
    have hc := c.isLt
    exact concatenate_pair_apply_right (1 : Fin S128x512.rank) u v concatenates_S128x256_S128x256_S128x512_d1 (ix2 r c) rfl rfl
      (ix2 r (⟨c.val - 256, by omega⟩ : Fin 256)) (fun b => match b with
        | ⟨0, _⟩ => fun _ => rfl
        | ⟨1, _⟩ => fun hne => absurd rfl hne)
      (by show c.val - 256 + 256 = c.val; omega)

/-- Two [128, 512] arrays stacked: the first on rows below 128, the second from there on. -/
theorem stacked_apply_of (u v : FVec Ideal S128x512 .bf16) (j : Fin 256) (c : Fin 512) :
    concatenate S256x512 0 [⟨S128x512, u⟩, ⟨S128x512, v⟩] concatenates_S128x512_S128x512_S256x512_d0 (ix2 j c)
      = if h : j.val < 128 then u (ix2 (⟨j.val, h⟩ : Fin 128) c) else v (ix2 (⟨j.val - 128, by omega⟩ : Fin 128) c) := by
  by_cases h : j.val < 128
  · rw [dif_pos h]
    exact concatenate_pair_apply_left (0 : Fin S256x512.rank) u v concatenates_S128x512_S128x512_S256x512_d0 (ix2 j c) rfl
      (ix2 (⟨j.val, h⟩ : Fin 128) c) (fun b => match b with
        | ⟨0, _⟩ => rfl
        | ⟨1, _⟩ => rfl)
  · rw [dif_neg h]
    have hj := j.isLt
    exact concatenate_pair_apply_right (0 : Fin S256x512.rank) u v concatenates_S128x512_S128x512_S256x512_d0 (ix2 j c) rfl rfl
      (ix2 (⟨j.val - 128, by omega⟩ : Fin 128) c) (fun b => match b with
        | ⟨0, _⟩ => fun hne => absurd rfl hne
        | ⟨1, _⟩ => fun _ => rfl)
      (by show j.val - 128 + 128 = j.val; omega)

/-! ## The tables at an index -/

/-- The padding value is zero. -/
theorem pad_value : (sitofp .f32 (constantI S_ 32 0#32) : FVec Ideal S_ .f32) ix0 = (0 : EReal) := by
  show (((0#32 : BitVec 32).toInt : ℝ) : EReal) = 0
  have : (0#32 : BitVec 32).toInt = 0 := by decide
  rw [this]
  simp

theorem padded0_apply (cw : FVec Ideal S2x118x256 .f32) (r : Fin 128) (d : Fin 256) :
    padded0 (F := Ideal) cw (ix2 r d) = if h : r.val < 118 then cw (ix3 (0 : Fin 2) (⟨r.val, h⟩ : Fin 118) d) else (0 : EReal) := by
  unfold padded0
  rw [pad_rows_apply]
  by_cases h : r.val < 118
  · rw [dif_pos h, dif_pos h, table0_apply]
  · rw [dif_neg h, dif_neg h, pad_value]

theorem padded1_apply (cw : FVec Ideal S2x118x256 .f32) (r : Fin 128) (d : Fin 256) :
    padded1 (F := Ideal) cw (ix2 r d) = if h : r.val < 118 then cw (ix3 (1 : Fin 2) (⟨r.val, h⟩ : Fin 118) d) else (0 : EReal) := by
  unfold padded1
  rw [pad_rows_apply]
  by_cases h : r.val < 118
  · rw [dif_pos h, dif_pos h, table1_apply]
  · rw [dif_neg h, dif_neg h, pad_value]

/-- Every entry of the wide table is a weight or zero: finite when the weights are. -/
theorem wide_finite (cw : FVec Ideal S2x118x256 .f32) (hfin : ∀ i, cw i ≠ (⊤ : EReal) ∧ cw i ≠ (⊥ : EReal)) (r : Fin 128) (c : Fin 512) :
    wide (F := Ideal) cw (ix2 r c) ≠ (⊤ : EReal) ∧ wide (F := Ideal) cw (ix2 r c) ≠ (⊥ : EReal) := by
  unfold wide
  rw [side_by_side_apply]
  by_cases hc : c.val < 256
  · rw [dif_pos hc, padded0_apply]
    by_cases h : r.val < 118
    · rw [dif_pos h]; exact hfin _
    · rw [dif_neg h]; exact ⟨EReal.zero_ne_top, EReal.zero_ne_bot⟩
  · rw [dif_neg hc, padded1_apply]
    by_cases h : r.val < 118
    · rw [dif_pos h]; exact hfin _
    · rw [dif_neg h]; exact ⟨EReal.zero_ne_top, EReal.zero_ne_bot⟩

/-- THE LOWER HALF of the stacked table is zero when the weights are finite: each entry is x − x at a finite x. -/
theorem stacked_lower (cw : FVec Ideal S2x118x256 .f32) (hfin : ∀ i, cw i ≠ (⊤ : EReal) ∧ cw i ≠ (⊥ : EReal))
    (j : Fin 256) (c : Fin 512) (hj : 128 ≤ j.val) : stacked (F := Ideal) cw (ix2 j c) = (0 : EReal) := by
  unfold stacked
  rw [stacked_apply_of, dif_neg (by omega)]
  have hj' := j.isLt
  show wide (F := Ideal) cw (ix2 (⟨j.val - 128, by omega⟩ : Fin 128) c) - wide (F := Ideal) cw (ix2 (⟨j.val - 128, by omega⟩ : Fin 128) c) = 0
  exact EReal.sub_self (wide_finite cw hfin _ c).1 (wide_finite cw hfin _ c).2

/-- THE UPPER HALF, row a < 118, left columns: weight table 0's row a. -/
theorem stacked_row0 (cw : FVec Ideal S2x118x256 .f32) (a : Nat) (ha : a < 118) (d : Fin 256) :
    stacked (F := Ideal) cw (ix2 (⟨a, by omega⟩ : Fin 256) (⟨d.val, by omega⟩ : Fin 512)) = cw (ix3 (0 : Fin 2) (⟨a, ha⟩ : Fin 118) d) := by
  unfold stacked
  rw [stacked_apply_of, dif_pos (show a < 128 by omega)]
  show wide (F := Ideal) cw (ix2 (⟨a, by omega⟩ : Fin 128) (⟨d.val, by omega⟩ : Fin 512)) = _
  unfold wide
  rw [side_by_side_apply, dif_pos (show d.val < 256 from d.isLt), padded0_apply, dif_pos ha]

/-- THE UPPER HALF, row a < 118, right columns: weight table 1's row a. -/
theorem stacked_row1 (cw : FVec Ideal S2x118x256 .f32) (a : Nat) (ha : a < 118) (d : Fin 256) :
    stacked (F := Ideal) cw (ix2 (⟨a, by omega⟩ : Fin 256) (⟨256 + d.val, by omega⟩ : Fin 512)) = cw (ix3 (1 : Fin 2) (⟨a, ha⟩ : Fin 118) d) := by
  unfold stacked
  rw [stacked_apply_of, dif_pos (show a < 128 by omega)]
  show wide (F := Ideal) cw (ix2 (⟨a, by omega⟩ : Fin 128) (⟨256 + d.val, by omega⟩ : Fin 512)) = _
  unfold wide
  rw [side_by_side_apply, dif_neg (show ¬ 256 + d.val < 256 by omega), padded1_apply, dif_pos ha]
  exact congrArg cw (congrArg (ix3 (1 : Fin 2) (⟨a, ha⟩ : Fin 118)) (Fin.ext (by show 256 + d.val - 256 = d.val; omega)))

/-- The reshaped species column at (n, 0) is word n. -/
theorem words_apply (a : IVec S400000 32) (n : Fin 400000) :
    shapeCast S400000x1 a shapeCasts_S400000_S400000x1 (ix2 n (0 : Fin 1)) = a (ix1 n) :=
  shapeCast_apply a shapeCasts_S400000_S400000x1 (ix2 n (0 : Fin 1)) (ix1 n)
    (by rw [Shape.rowMajor_val_one, Shape.rowMajor_val_two]; show n.val = n.val * 1 + 0; omega)

/-- The reshaped bias row at (0, f) is entry f. -/
theorem bias_apply (b : FVec Ideal S128 .f32) (f : Fin 128) :
    shapeCast S1x128 b shapeCasts_S128_S1x128 (ix2 (0 : Fin 1) f) = b (ix1 f) :=
  shapeCast_apply b shapeCasts_S128_S1x128 (ix2 (0 : Fin 1) f) (ix1 f)
    (by rw [Shape.rowMajor_val_one, Shape.rowMajor_val_two]; show f.val = 0 * 128 + f.val; omega)

end Cert.KernelIdeal.HostPrefix

end
-- ==== Proof.PreDecode.lean ====
/-
  What the precondition says of the arguments.

  The precondition is one truth value: the conjunction of "every entry is smaller than +∞ in absolute value" for each
  float argument and of "every species word is at least 0" and "every species word is below 118". Each of the six is
  a reduction by "and" of an elementwise comparison, so the value being true gives the comparison at every element.
  Used further on: every weight is a finite number, and every species word, as a natural number, is below 118.
-/
import proofs.«404822_j44203803410587_3_alg».proof.Proof.Gen.Pre_finite_inputs
import proofs.«404822_j44203803410587_3_alg».proof.Proof.Spec
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Decode

open Cert.Pre_finite_inputs Cert.Pre_finite_inputs.Gen
open Idealize.ShloMosaic Idealize.ShloMosaic.ValueIdx Cert.Contraction

instance : Subsingleton S_.Idx := ⟨fun a b => funext fun d => d.elim0⟩

/-- An extended real whose absolute value is below the float format's +∞ is neither infinity. -/
theorem finite_of_abs_lt (x : EReal)
    (h : FloatOps.cmpf (F := Ideal) (φ := .f32) .olt (FloatOps.hostAbsf (F := Ideal) (φ := .f32) x) (Ideal.ofBits .f32 0x7F800000#32) = 1#1) :
    x ≠ (⊤ : EReal) ∧ x ≠ (⊥ : EReal) := by
  have hinf : Ideal.ofBits .f32 0x7F800000#32 = (⊤ : EReal) := by simp [Ideal.ofBits, Ideal.ieee]
  change Ideal.cmp .olt (max x (-x)) (Ideal.ofBits .f32 0x7F800000#32) = 1#1 at h
  rw [hinf] at h
  have hlt : max x (-x) < (⊤ : EReal) := by
    change BitVec.ofBool (decide (max x (-x) < (⊤ : EReal))) = 1#1 at h
    by_contra hn
    rw [decide_eq_false hn] at h
    exact absurd h (by decide)
  constructor
  · rintro rfl
    simp at hlt
  · rintro rfl
    simp at hlt

/-- Under the precondition every weight is finite and every species word is below 118. -/
theorem decode (a0 : FVec Ideal S400000x256 .f32) (a1 : IVec S400000 32) (a2 : FVec Ideal S2x118x256 .f32)
    (a3 : FVec Ideal S256x128 .f32) (a4 : FVec Ideal S128 .f32)
    (h : fn (F := Ideal) a0 a1 a2 a3 a4 = fun _ => 1#1) :
    (∀ i, a2 i ≠ (⊤ : EReal) ∧ a2 i ≠ (⊥ : EReal)) ∧ (∀ n : Fin 400000, (a1 (ix1 n)).toNat < 118) := by
  have e := congrFun h ix0
  dsimp only [fn, fn_part1] at e
  obtain ⟨e22, e25⟩ := IntOp.andi_eq_one.1 (show IntOp.andi _ _ = 1#1 from e)
  obtain ⟨e18, e21⟩ := IntOp.andi_eq_one.1 (show IntOp.andi _ _ = 1#1 from e22)
  obtain ⟨e13, -⟩ := IntOp.andi_eq_one.1 (show IntOp.andi _ _ = 1#1 from e18)
  obtain ⟨e8, -⟩ := IntOp.andi_eq_one.1 (show IntOp.andi _ _ = 1#1 from e13)
  obtain ⟨-, e7⟩ := IntOp.andi_eq_one.1 (show IntOp.andi _ _ = 1#1 from e8)
  refine ⟨fun i => ?_, fun n => ?_⟩
  · have := Host.reduce_andi_all _ _ _ _ ix0 e7 i
    exact finite_of_abs_lt (a2 i) this
  · have h0 := Host.reduce_andi_all _ _ _ _ ix0 e21 (ix1 n)
    have h1 := Host.reduce_andi_all _ _ _ _ ix0 e25 (ix1 n)
    exact toNat_lt_of_range (a1 (ix1 n)) h0 h1

end Cert.Pre_finite_inputs.Decode

end
-- ==== Proof.Blocks.lean ====
/-
  From the blocks to the whole result array.

  The grid has 125 points; point t works on nodes 3200·t … 3200·t + 3199. Its input blocks are those rows of x and of
  the species column, and the whole stacked table, the whole linear map and the bias row; what it writes back is rows
  3200·t … of the result. Reading the stored value at a block index (p, f) with the blocks replaced by the rows of the
  arguments they are gives the specification at node n = 3200·t + p: the table's row at the node's species word is
  the species' pair of weight rows, its lower half being zero for finite weights. The 125 blocks of 3200 rows
  tile the 400000 rows, so the array ends as the specification everywhere.
-/
import proofs.«404822_j44203803410587_3_alg».proof.Proof.Gen.KernelIdeal.Value
import proofs.«404822_j44203803410587_3_alg».proof.Proof.Payload
import proofs.«404822_j44203803410587_3_alg».proof.Proof.HostPrefix
import proofs.«404822_j44203803410587_3_alg».proof.Proof.Spec
import Idealize.ShloMosaic.Lib.Pipeline.Value

noncomputable section

open scoped BigOperators

namespace Cert.KernelIdeal.Blocks

open Cert.KernelIdeal Cert.KernelIdeal.Gen Cert.KernelIdeal.Value Cert.KernelIdeal.Payload Cert.KernelIdeal.HostPrefix
open Idealize.ShloMosaic Idealize.ShloMosaic.TcCoe Idealize.SL.Sem Idealize.ShloMosaic.ValueIdx Cert.Contraction
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arguments, at their literal types -/

abbrev xs (c : Dev nD) : FVec Ideal S400000x256 .f32 := m ((c : Thread nD τ).loc main_arg0)
abbrev ws (c : Dev nD) : IVec S400000 32 := m ((c : Thread nD τ).loc main_arg1)
abbrev cws (c : Dev nD) : FVec Ideal S2x118x256 .f32 := m ((c : Thread nD τ).loc main_arg2)
abbrev lws (c : Dev nD) : FVec Ideal S256x128 .f32 := m ((c : Thread nD τ).loc main_arg3)
abbrev lbs (c : Dev nD) : FVec Ideal S128 .f32 := m ((c : Thread nD τ).loc main_arg4)

/-- The result array the specification gives for core c's arguments. -/
abbrev spec (c : Dev nD) : S400000x128.Idx → Ideal .f32 := G (xs m c) (ws m c) (cws m c) (lws m c) (lbs m c)

/-! ## The index maps over the grid -/

/-- Point t's block index in each window: the node-indexed windows move with t along the rows, the three
    resident operands stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks as rows of the arguments -/

/-- Block t of x at (p, d) is x at node 3200·t + p. -/
theorem xblk_apply (c : Dev nD) (t : Fin cfg0.N) (p : Fin 3200) (d : Fin 256) (n : Fin 400000) (hn : n.val = 3200 * t.val + p.val) :
    (iblk m c 0 t : Vec Ideal S3200x256 .f32) (ix2 p d) = xs m c (ix2 n d) := by
  obtain ⟨h00, h01, -⟩ := idx_facts t
  unfold iblk
  rw [View.read_apply]
  show V m c main_arg0 _ = m (c.tc.loc main_arg0) _
  rw [V_main_arg0]
  congr 1
  funext a; apply Fin.ext
  match a with
  | ⟨0, _⟩ => show win0_0.index t 0 * 3200 + 1 * p.val = n.val; rw [h00, hn]; omega
  | ⟨1, _⟩ => show win0_0.index t 1 * 256 + 1 * d.val = d.val; rw [h01]; omega

/-- Block t of the species column at (p, 0) is the word of node 3200·t + p. -/
theorem wblk_apply (c : Dev nD) (t : Fin cfg0.N) (p : Fin 3200) (n : Fin 400000) (hn : n.val = 3200 * t.val + p.val) :
    (iblk m c 1 t : Vec Ideal S3200x1 .i32) (ix2 p (0 : Fin 1)) = ws m c (ix1 n) := by
  obtain ⟨-, -, h10, h11, -⟩ := idx_facts t
  unfold iblk
  rw [View.read_apply]
  show V m c main_v12 _ = m (c.tc.loc main_arg1) _
  rw [words_eq]
  have e : (((cfg0.win 1).blk t).view.emb (ix2 p (0 : Fin 1)) : S400000x1.Idx) = ix2 n (0 : Fin 1) := by
    funext a; apply Fin.ext
    match a with
    | ⟨0, _⟩ => show win0_1.index t 0 * 3200 + 1 * p.val = n.val; rw [h10, hn]; omega
    | ⟨1, _⟩ => show win0_1.index t 1 * 1 + 1 * 0 = 0; rw [h11]
  rw [e]
  exact words_apply _ n

/-- The table block is the whole stacked table. -/
theorem tblk_apply (c : Dev nD) (t : Fin cfg0.N) (j : Fin 256) (cc : Fin 512) :
    (iblk m c 2 t : Vec Ideal S256x512 .bf16) (ix2 j cc) = stacked (F := Ideal) (cws m c) (ix2 j cc) := by
  obtain ⟨-, -, -, -, h20, h21, -⟩ := idx_facts t
  unfold iblk
  rw [View.read_apply]
  show V m c main_v11 _ = stacked (F := Ideal) (m (c.tc.loc main_arg2)) _
  rw [table_eq]
  congr 1
  funext a; apply Fin.ext
  match a with
  | ⟨0, _⟩ => show win0_2.index t 0 * 256 + 1 * j.val = j.val; rw [h20]; omega
  | ⟨1, _⟩ => show win0_2.index t 1 * 512 + 1 * cc.val = cc.val; rw [h21]; omega

/-- The linear-map block is the whole linear map. -/
theorem lblk_apply (c : Dev nD) (t : Fin cfg0.N) (d : Fin 256) (f : Fin 128) :
    (iblk m c 3 t : Vec Ideal S256x128 .bf16) (ix2 d f) = lws m c (ix2 d f) := by
  obtain ⟨-, -, -, -, -, -, h30, h31, -⟩ := idx_facts t
  unfold iblk
  rw [View.read_apply]
  show V m c main_v13 _ = m (c.tc.loc main_arg3) _
  rw [linw_eq]
  show m (c.tc.loc main_arg3) _ = m (c.tc.loc main_arg3) _
  congr 1
  funext a; apply Fin.ext
  match a with
  | ⟨0, _⟩ => show win0_3.index t 0 * 256 + 1 * d.val = d.val; rw [h30]; omega
  | ⟨1, _⟩ => show win0_3.index t 1 * 128 + 1 * f.val = f.val; rw [h31]; omega

/-- The bias block is the bias row. -/
theorem bblk_apply (c : Dev nD) (t : Fin cfg0.N) (f : Fin 128) :
    (iblk m c 4 t : Vec Ideal S1x128 .f32) (ix2 (0 : Fin 1) f) = lbs m c (ix1 f) := by
  obtain ⟨-, -, -, -, -, -, -, -, h40, h41, -⟩ := idx_facts t
  unfold iblk
  rw [View.read_apply]
  show V m c main_v14 _ = m (c.tc.loc main_arg4) _
  rw [bias_eq]
  have e : (((cfg0.win 4).blk t).view.emb (ix2 (0 : Fin 1) f) : S1x128.Idx) = ix2 (0 : Fin 1) f := by
    funext a; apply Fin.ext
    match a with
    | ⟨0, _⟩ => show win0_4.index t 0 * 1 + 1 * 0 = 0; rw [h40]
    | ⟨1, _⟩ => show win0_4.index t 1 * 128 + 1 * f.val = f.val; rw [h41]; omega
  rw [e]
  exact bias_apply _ f

/-! ## What a point writes back -/

/-- WHAT POINT t WRITES BACK is block t of the specification, for finite weights and species words below 118. -/
theorem flushed_eq (c : Dev nD) (hfin : ∀ i, cws m c i ≠ (⊤ : EReal) ∧ cws m c i ≠ (⊥ : EReal))
    (hr : ∀ n : Fin 400000, (ws m c (ix1 n)).toNat < 118) (t : Fin cfg0.N) :
    (dats m 0 c).flushed 5 t = ((cfg0.win 5).blk t).view.read (Elt Ideal) (spec m c) := by
  rw [flushed5]
  unfold out0_5
  rw [View.canon_unit_zero hz]
  simp only [View.ld_unit_zero (S := S3200x256) hz, View.ld_unit_zero (S := S3200x1) hz, View.ld_unit_zero (S := S256x512) hz,
    View.ld_unit_zero (S := S256x128) hz, View.ld_unit_zero (S := S1x128) hz]
  funext j
  obtain ⟨p, f, rfl⟩ : ∃ (p : Fin 3200) (f : Fin 128), j = ix2 p f := ⟨j 0, j 1, eq_ix2 j⟩
  have hN : cfg0.N = 125 := N_0
  have ht := t.isLt
  have hp := p.isLt
  obtain ⟨-, -, -, -, -, -, -, -, -, -, h50, h51⟩ := idx_facts t
  have hnlt : 3200 * t.val + p.val < 400000 := by omega
  have e5 : (((cfg0.win 5).blk t).view.emb (ix2 p f) : S400000x128.Idx) = ix2 (⟨3200 * t.val + p.val, hnlt⟩ : Fin 400000) f := by
    funext a; apply Fin.ext
    match a with
    | ⟨0, _⟩ => show win0_5.index t 0 * 3200 + 1 * p.val = 3200 * t.val + p.val; rw [h50]; omega
    | ⟨1, _⟩ => show win0_5.index t 1 * 128 + 1 * f.val = f.val; rw [h51]; omega
  show k0_pay1 (F := Ideal) (iblk m c 0 t) (iblk m c 1 t) (iblk m c 2 t) (iblk m c 3 t) (iblk m c 4 t) (ix2 p f)
    = spec m c (((cfg0.win 5).blk t).view.emb (ix2 p f))
  rw [e5]
  have hw := hr ⟨3200 * t.val + p.val, hnlt⟩
  refine (pay_apply (iblk m c 0 t) (iblk m c 1 t) (iblk m c 2 t) (iblk m c 3 t) (iblk m c 4 t) p f
    (ws m c (ix1 (⟨3200 * t.val + p.val, hnlt⟩ : Fin 400000))) (wblk_apply m c t p ⟨3200 * t.val + p.val, hnlt⟩ rfl) hw
    (fun j cc hj => (tblk_apply m c t j cc).trans (stacked_lower (cws m c) hfin j cc hj))).trans ?_
  show _ = out (xs m c) (ws m c) (cws m c) (lws m c) (lbs m c) ⟨3200 * t.val + p.val, hnlt⟩ f
  unfold out basis
  rw [row_of_lt _ hw, bblk_apply m c t f]
  refine congrArg (· + lbs m c (ix1 f)) (Finset.sum_congr rfl fun d _ => ?_)
  rw [tblk_apply m c t, tblk_apply m c t, stacked_row0 (cws m c) _ hw d, stacked_row1 (cws m c) _ hw d,
    xblk_apply m c t p d ⟨3200 * t.val + p.val, hnlt⟩ rfl, lblk_apply m c t d f]

/-! ## The cover -/

/-- An index of the result array is in point t's block iff its row is among the block's 3200 rows. -/
theorem mem_blk (t : Fin cfg0.N) (i : S400000x128.Idx) :
    i ∈ ((cfg0.win 5).blk t).view.set ↔ ∀ a : Fin 2, win0_5.index t a * S3200x128.size a ≤ (i a).val ∧ (i a).val < win0_5.index t a * S3200x128.size a + S3200x128.size a := by
  show i ∈ ((View.whole main_v15).slice (win0_5.rect t)).set ↔ _
  rw [View.set_slice_whole, Rect.mem_set_unit]
  exact Iff.rfl

/-- Every index of the result array is in the block of the point its row falls to. -/
theorem cover (i : S400000x128.Idx) : ∃ t : Fin cfg0.N, (cfg0.win 5).flush t = true ∧ i ∈ ((cfg0.win 5).blk t).view.set := by
  have hN : cfg0.N = 125 := N_0
  have hi0 : (i 0).val < 400000 := (i 0).isLt
  have hi1 : (i 1).val < 128 := (i 1).isLt
  refine ⟨⟨(i 0).val / 3200, by omega⟩, flush0_5 _, ?_⟩
  rw [mem_blk]
  obtain ⟨-, -, -, -, -, -, -, -, -, -, h50, h51⟩ := idx_facts (⟨(i 0).val / 3200, by omega⟩ : Fin cfg0.N)
  intro a
  match a with
  | ⟨0, _⟩ =>
    show win0_5.index _ (0 : Fin 2) * 3200 ≤ (i 0).val ∧ (i 0).val < win0_5.index _ (0 : Fin 2) * 3200 + 3200
    rw [h50]
    show (i 0).val / 3200 * 3200 ≤ (i 0).val ∧ (i 0).val < (i 0).val / 3200 * 3200 + 3200
    omega
  | ⟨1, _⟩ =>
    show win0_5.index _ (1 : Fin 2) * 128 ≤ (i 1).val ∧ (i 1).val < win0_5.index _ (1 : Fin 2) * 128 + 128
    rw [h51]
    omega

/-! ## The array and the run -/

/-- THE RESULT ARRAY after the run is the specification. -/
theorem final (c : Dev nD) (hfin : ∀ i, cws m c i ≠ (⊤ : EReal) ∧ cws m c i ≠ (⊥ : EReal))
    (hr : ∀ n : Fin 400000, (ws m c (ix1 n)).toNat < 118) :
    (dats m 0 c).arrAt 5 cfg0.N = spec m c :=
  (dats m 0 c).arrAt_eq_of_cover 5 (spec m c) (fun t _ => flushed_eq m c hfin hr t) cover

/-- The kernel's run, re-posted: the result at the specification, the arguments unchanged. -/
theorem run (hfin : ∀ c i, cws m c i ≠ (⊤ : EReal) ∧ cws m c i ≠ (⊥ : EReal))
    (hr : ∀ c (n : Fin 400000), (ws m c (ix1 n)).toNat < 118) :
    θ_run defs (onTc (τ := τ) (main (F := Ideal))) ⟨m, fun _ => 0, ρ⟩ fun r => ∀ c : Dev nD,
      r.2.mem ((c : Thread nD τ).loc main_v15) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hfin c) (hr c)), (h c).2⟩) (run_blocks m ρ)

end Cert.KernelIdeal.Blocks

end
-- ==== Proof.lean ====
/- The proof of `Cert.Claim`: a species-indexed symmetric contraction of order two followed by a linear layer,
   computed by a pipelined kernel over blocks of 3200 nodes and by a plain array program, give the same result on the
   extended reals.

   For node n with species word a[n] the result is
       out[n, f] = (∑ d, (cw[0, a[n], d] · x[n, d] + cw[1, a[n], d] · x[n, d]²) · lw[d, f]) + lb[f].
   The plain program gathers the two weight rows by index. The kernel selects them by multiplying an indicator matrix
   (column j is hit when j ≡ a[n] mod 128) into a 256-row table whose upper half holds the two weight tables side by side,
   padded with zero rows, and whose lower half holds table − table. On exact values the lower half is zero as soon as the
   weights are finite, and the indicator row of a word in [0, 118) has its two ones at rows a[n] and a[n] + 128, so the
   product is the gathered row. Both facts come from the precondition: the float inputs are finite and every species
   word lies in [0, 118), the range of the weight tables' species axis. Outside that range the two programs differ (a
   word in [118, 128) selects a zero padding row in the kernel and the clamped last row in the plain program).

   Proof/Spec.lean states the result as one function and the word facts; Proof/RefSide.lean reads the plain program's
   run as that function; Proof/Payload.lean reads what the kernel body stores for a block; Proof/HostPrefix.lean reads
   the table and the reshaped operands the kernel is launched on; Proof/Blocks.lean goes from the 125 blocks to the
   whole array; Proof/PreDecode.lean unfolds the precondition. The three frame claims are the generated frames (the
   plain program's is its generated run with the result dropped); the passage to exact values rewrote no operation, so
   the preservation claim is trivial. -/
import proofs.«404822_j44203803410587_3_alg».proof.Defs
import proofs.«404822_j44203803410587_3_alg».proof.Proof.Gen.Kernel
import proofs.«404822_j44203803410587_3_alg».proof.Proof.Gen.Kernel.Skeleton
import proofs.«404822_j44203803410587_3_alg».proof.Proof.Gen.Kernel.Launch
import proofs.«404822_j44203803410587_3_alg».proof.Proof.Gen.Kernel.Points
import proofs.«404822_j44203803410587_3_alg».proof.Proof.Gen.Kernel.Frame
import proofs.«404822_j44203803410587_3_alg».proof.Proof.Gen.KernelIdeal
import proofs.«404822_j44203803410587_3_alg».proof.Proof.Gen.KernelIdeal.Skeleton
import proofs.«404822_j44203803410587_3_alg».proof.Proof.Gen.KernelIdeal.Launch
import proofs.«404822_j44203803410587_3_alg».proof.Proof.Gen.KernelIdeal.Points
import proofs.«404822_j44203803410587_3_alg».proof.Proof.Gen.KernelIdeal.Frame
import proofs.«404822_j44203803410587_3_alg».proof.Proof.Gen.ReferenceIdeal
import proofs.«404822_j44203803410587_3_alg».proof.Proof.Gen.Pre_finite_inputs
import proofs.«404822_j44203803410587_3_alg».proof.Proof.Gen.KernelIdeal.Value
import proofs.«404822_j44203803410587_3_alg».proof.Proof.Gen.ReferenceIdeal.Run
import proofs.«404822_j44203803410587_3_alg».proof.Proof.Gen.ReferenceIdeal.Read
import proofs.«404822_j44203803410587_3_alg».proof.Proof.Spec
import proofs.«404822_j44203803410587_3_alg».proof.Proof.RefSide
import proofs.«404822_j44203803410587_3_alg».proof.Proof.Payload
import proofs.«404822_j44203803410587_3_alg».proof.Proof.HostPrefix
import proofs.«404822_j44203803410587_3_alg».proof.Proof.PreDecode
import proofs.«404822_j44203803410587_3_alg».proof.Proof.Blocks
import Idealize.ShloMosaic.Adequacy
import Idealize.ShloMosaic.Init

noncomputable section

namespace Cert.Proof

open Idealize.ShloMosaic Idealize.SL.Sem

/-- The kernel as printed runs and leaves its arguments alone: its generated frame. -/
theorem frame_k : Cert.frame_Kernel := fun m ρ _ => Cert.Kernel.Gen.frame m ρ

/-- So does the kernel read on exact values. -/
theorem frame_ki : Cert.frame_KernelIdeal := fun m ρ _ => Cert.KernelIdeal.Gen.frame m ρ

/-- The plain program runs and leaves its arguments alone: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- On exact values, from arguments that agree, both programs end with the specification's array: the kernel's run
    re-posted block by block, the plain program's run read index by index, under what the precondition says of the
    weights (finite) and of the species words (in range). -/
theorem algebraic : Cert.algebraic_KernelIdeal_ReferenceIdeal := by
  intro m ρ m' ρ' hpre hagree
  have hdec := fun c => Cert.Pre_finite_inputs.Decode.decode _ _ _ _ _ (hpre c)
  refine ⟨fun c => Cert.KernelIdeal.Blocks.spec m c,
    Cert.KernelIdeal.Blocks.run m ρ (fun c => (hdec c).1) (fun c => (hdec c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2.1, (hagree c).2.2.2.1,
    (hagree c).2.2.2.2]
  exact Cert.ReferenceIdeal.RefValue.ref_eq _ _ _ _ _ (hdec c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
